-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S131072x2 : Shape := ⟨2, ![131072, 2]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S131072x2 : S_.BroadcastsInDim S131072x2 (![] : Fin 0 → Fin S131072x2.rank)
  reducesTo_S131072x2_S_d0_1 : S131072x2.ReducesTo [0, 1] S_

variable [Facts]

def fn_part3 {F : FTy → Type} [FloatOps F] (main_arg3 : IVec S131072x2 32) (main_v48 : IVec S_ 1) (main_v50 : IVec S131072x2 1) : IVec S_ 1 :=
  let main_c_19 : IVec S_ 32 := constantI S_ 32 40000#32
  let main_v51 : IVec S131072x2 32 := broadcastInDim S131072x2 ![] bcast_S_S131072x2 main_c_19
  let main_v52 : IVec S131072x2 1 := cmpi .slt main_arg3 main_v51
  let main_v53 : IVec S131072x2 1 := andi main_v50 main_v52
  let main_c_20 : IVec S_ 1 := constantI S_ 1 1#1
  let main_v54 : IVec S_ 1 := (fun x v => Host.reduce IntOp.andi x v reducesTo_S131072x2_S_d0_1 h_S_) main_v53 main_c_20
  let main_v55 : IVec S_ 1 := andi main_v48 main_v54
  main_v55

def fn_part2 {F : FTy → Type} [FloatOps F] (main_arg3 : IVec S131072x2 32) (main_arg9 : FVec F S128 .f32) (main_arg10 : FVec F S128x256 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 4294927296#32
  let main_v49 : IVec S131072x2 32 := broadcastInDim S131072x2 ![] bcast_S_S131072x2 main_c_18
  let main_v50 : IVec S131072x2 1 := cmpi .sge main_arg3 main_v49
  fn_part3 (F := F) main_arg3 main_v48 main_v50

def fn_part1 {F : FTy → Type} [FloatOps F] (main_arg3 : IVec S131072x2 32) (main_arg6 : FVec F S128x256 .f32) (main_arg7 : FVec F S128 .f32) (main_arg8 : FVec F S128x128 .f32) (main_arg9 : FVec F S128 .f32) (main_arg10 : FVec F S128x256 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg9 main_arg10 main_arg11 main_v33

def fn {F : FTy → Type} [FloatOps F] (main_arg0 : FVec F S40000x128 .f32) (main_arg1 : IVec S2x640000 32) (main_arg2 : FVec F S640000x128 .f32) (main_arg3 : IVec S131072x2 32) (main_arg4 : FVec F S128x128 .f32) (main_arg5 : FVec F S128 .f32) (main_arg6 : FVec F S128x256 .f32) (main_arg7 : FVec F S128 .f32) (main_arg8 : FVec F S128x128 .f32) (main_arg9 : FVec F S128 .f32) (main_arg10 : FVec F S128x256 .f32) (main_arg11 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_arg10 main_arg11 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S131072x2 : Shape := ⟨2, ![131072, 2]⟩
abbrev S128x128 : Shape := ⟨2, ![128, 128]⟩
abbrev S128 : Shape := ⟨1, ![128]⟩
abbrev S128x256 : Shape := ⟨2, ![128, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000 : Shape := ⟨1, ![40000]⟩
abbrev S40000x1 : Shape := ⟨2, ![40000, 1]⟩
abbrev S256x128 : Shape := ⟨2, ![256, 128]⟩
abbrev S5000x128 : Shape := ⟨2, ![5000, 128]⟩
abbrev S1x128 : Shape := ⟨2, ![1, 128]⟩
abbrev S131072x1 : Shape := ⟨2, ![131072, 1]⟩
abbrev S131072 : Shape := ⟨1, ![131072]⟩
abbrev S1 : Shape := ⟨1, ![1]⟩
abbrev S1x1 : Shape := ⟨2, ![1, 1]⟩
abbrev S131072x128 : Shape := ⟨2, ![131072, 128]⟩
abbrev S8192x128 : Shape := ⟨2, ![8192, 128]⟩

abbrev nBuf : Space → Nat
  | .hbm => 87
  | .vmem => 17
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S131072x2, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S40000, .f32⟩
  | .hbm, ⟨22, _⟩ => ⟨S640000x1, .i32⟩
  | .hbm, ⟨23, _⟩ => ⟨S40000, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S40000x1, .f32⟩
  | .hbm, ⟨28, _⟩ => ⟨S40000x128, .f32⟩
  | .hbm, ⟨29, _⟩ => ⟨S40000x128, .f32⟩
  | .hbm, ⟨30, _⟩ => ⟨S128x128, .f32⟩
  | .hbm, ⟨31, _⟩ => ⟨S256x128, .f32⟩
  | .hbm, ⟨32, _⟩ => ⟨S128x128, .f32⟩
  | .hbm, ⟨33, _⟩ => ⟨S128x128, .f32⟩
  | .hbm, ⟨34, _⟩ => ⟨S40000x128, .f32⟩
  | .hbm, ⟨35, _⟩ => ⟨S40000x128, .f32⟩
  | .hbm, ⟨36, _⟩ => ⟨S131072x1, .i32⟩
  | .hbm, ⟨37, _⟩ => ⟨S131072, .i32⟩
  | .hbm, ⟨38, _⟩ => ⟨S131072x1, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S1, .i32⟩
  | .hbm, ⟨49, _⟩ => ⟨S_, .i32⟩
  | .hbm, ⟨50, _⟩ => ⟨S131072x1, .i32⟩
  | .hbm, ⟨51, _⟩ => ⟨S131072x1, .i1⟩
  | .hbm, ⟨52, _⟩ => ⟨S1x1, .i32⟩
  | .hbm, ⟨53, _⟩ => ⟨S131072x1, .i32⟩
  | .hbm, ⟨54, _⟩ => ⟨S131072x1, .i1⟩
  | .hbm, ⟨55, _⟩ => ⟨S131072x1, .i1⟩
  | .hbm, ⟨56, _⟩ => ⟨S_, .i1⟩
  | .hbm, ⟨57, _⟩ => ⟨S131072, .i1⟩
  | .hbm, ⟨58, _⟩ => ⟨S131072x128, .f32⟩
  | .hbm, ⟨59, _⟩ => ⟨S131072x128, .i1⟩
  | .hbm, ⟨60, _⟩ => ⟨S_, .f32⟩
  | .hbm, ⟨61, _⟩ => ⟨S131072x128, .f32⟩
  | .hbm, ⟨62, _⟩ => ⟨S131072x128, .f32⟩
  | .hbm, ⟨63, _⟩ => ⟨S_, .i32⟩
  | .hbm, ⟨64, _⟩ => ⟨S131072, .i32⟩
  | .hbm, ⟨65, _⟩ => ⟨S131072, .i1⟩
  | .hbm, ⟨66, _⟩ => ⟨S_, .i32⟩
  | .hbm, ⟨67, _⟩ => ⟨S131072, .i32⟩
  | .hbm, ⟨68, _⟩ => ⟨S131072, .i32⟩
  | .hbm, ⟨69, _⟩ => ⟨S131072, .i32⟩
  | .hbm, ⟨70, _⟩ => ⟨S131072x1, .i32⟩
  | .hbm, ⟨71, _⟩ => ⟨S1, .i32⟩
  | .hbm, ⟨72, _⟩ => ⟨S_, .i32⟩
  | .hbm, ⟨73, _⟩ => ⟨S131072x1, .i32⟩
  | .hbm, ⟨74, _⟩ => ⟨S131072x1, .i1⟩
  | .hbm, ⟨75, _⟩ => ⟨S1x1, .i32⟩
  | .hbm, ⟨76, _⟩ => ⟨S131072x1, .i32⟩
  | .hbm, ⟨77, _⟩ => ⟨S131072x1, .i1⟩
  | .hbm, ⟨78, _⟩ => ⟨S131072x1, .i1⟩
  | .hbm, ⟨79, _⟩ => ⟨S_, .i1⟩
  | .hbm, ⟨80, _⟩ => ⟨S131072, .i1⟩
  | .hbm, ⟨81, _⟩ => ⟨S131072x128, .f32⟩
  | .hbm, ⟨82, _⟩ => ⟨S131072x128, .i1⟩
  | .hbm, ⟨83, _⟩ => ⟨S_, .f32⟩
  | .hbm, ⟨84, _⟩ => ⟨S131072x128, .f32⟩
  | .hbm, ⟨85, _⟩ => ⟨S131072x128, .f32⟩
  | .hbm, ⟨86, _⟩ => ⟨S131072x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S128, .f32⟩
  | .local _ .vmem, ⟨15, _⟩ => ⟨S8192x128, .f32⟩
  | .local _ .vmem, ⟨16, _⟩ => ⟨S8192x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v23 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v24 : Ref sig .tc := ⟨.hbm, 85, rfl⟩
abbrev main_v25 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x640000_S1x640000_1_0 : S2x640000.Slices ![1, 0] S1x640000
  shapeCasts_S1x640000_S640000 : S1x640000.ShapeCasts S640000
  bcast_S_S40000x128 : S_.BroadcastsInDim S40000x128 (![] : Fin 0 → Fin S40000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  transposes_S128x256_S256x128_1_0 : S128x256.Transposes [1, 0] S256x128
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x128_0 : S131072.BroadcastsInDim S131072x128 (![0] : Fin 1 → Fin S131072x128.rank)
  bcast_S_S131072x128 : S_.BroadcastsInDim S131072x128 (![] : Fin 0 → Fin S131072x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x128_S8192x128 : S1x128.Broadcasts S8192x128
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  gather_S40000x128_S131072x1_S131072x128_1_0_n_n_0_1_1128_wf : GatherDims.WF S40000x128 S131072x1 S131072x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S131072x128.size a
  hwx1_0 : ∀ i : grid1.Coords, EltTy.bits .f32 = 32 ∨ (Rect.block (s := S131072x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S131072x128.size a
  hwx1_1 : ∀ i : grid1.Coords, EltTy.bits .f32 = 32 ∨ (Rect.block (s := S131072x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S131072x128.size a
  hwx1_3 : ∀ i : grid1.Coords, EltTy.bits .f32 = 32 ∨ (Rect.block (s := S131072x128) S8192x128.size (cc1_transform_3 i) (hinb1_3 i)).WholeWords (EltTy.packing .f32)

variable [Facts₀]

def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S131072x1_S131072x128_1_0_n_n_0_1_1128 : GatherDims S40000x128 S131072x1 S131072x128 where
  offsetDims := [1]
  collapsedSliceDims := [0]
  operandBatchingDims := []
  startIndicesBatchingDims := []
  startIndexMap := [0]
  indexVectorDim := 1
  sliceSizes := ![1, 128]
  wf := gather_S40000x128_S131072x1_S131072x128_1_0_n_n_0_1_1128_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S131072x2 : Shape := ⟨2, ![131072, 2]⟩
abbrev S128x128 : Shape := ⟨2, ![128, 128]⟩
abbrev S128 : Shape := ⟨1, ![128]⟩
abbrev S128x256 : Shape := ⟨2, ![128, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000 : Shape := ⟨1, ![40000]⟩
abbrev S40000x1 : Shape := ⟨2, ![40000, 1]⟩
abbrev S1x128 : Shape := ⟨2, ![1, 128]⟩
abbrev S131072x1 : Shape := ⟨2, ![131072, 1]⟩
abbrev S131072 : Shape := ⟨1, ![131072]⟩
abbrev S131072x128 : Shape := ⟨2, ![131072, 128]⟩
abbrev S131072x256 : Shape := ⟨2, ![131072, 256]⟩
abbrev S256x128 : Shape := ⟨2, ![256, 128]⟩

abbrev nBuf : Space → Nat
  | .hbm => 120
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S131072x2, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S40000, .f32⟩
  | .hbm, ⟨22, _⟩ => ⟨S640000x1, .i32⟩
  | .hbm, ⟨23, _⟩ => ⟨S40000, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S40000x1, .f32⟩
  | .hbm, ⟨28, _⟩ => ⟨S40000x128, .f32⟩
  | .hbm, ⟨29, _⟩ => ⟨S40000x128, .f32⟩
  | .hbm, ⟨30, _⟩ => ⟨S128x128, .f32⟩
  | .hbm, ⟨31, _⟩ => ⟨S40000x128, .f32⟩
  | .hbm, ⟨32, _⟩ => ⟨S1x128, .f32⟩
  | .hbm, ⟨33, _⟩ => ⟨S40000x128, .f32⟩
  | .hbm, ⟨34, _⟩ => ⟨S40000x128, .f32⟩
  | .hbm, ⟨35, _⟩ => ⟨S_, .f32⟩
  | .hbm, ⟨36, _⟩ => ⟨S40000x128, .f32⟩
  | .hbm, ⟨37, _⟩ => ⟨S40000x128, .f32⟩
  | .hbm, ⟨38, _⟩ => ⟨S131072x1, .i32⟩
  | .hbm, ⟨39, _⟩ => ⟨S131072, .i32⟩
  | .hbm, ⟨40, _⟩ => ⟨S131072x1, .i32⟩
  | .hbm, ⟨41, _⟩ => ⟨S131072, .i32⟩
  | .hbm, ⟨42, _⟩ => ⟨S_, .i32⟩
  | .hbm, ⟨43, _⟩ => ⟨S131072, .i32⟩
  | .hbm, ⟨44, _⟩ => ⟨S131072, .i1⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S131072, .i32⟩
  | .hbm, ⟨49, _⟩ => ⟨S131072x1, .i32⟩
  | .hbm, ⟨50, _⟩ => ⟨S131072x128, .f32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S131072x1, .i32⟩
  | .hbm, ⟨59, _⟩ => ⟨S131072x128, .f32⟩
  | .hbm, ⟨60, _⟩ => ⟨S131072x256, .f32⟩
  | .hbm, ⟨61, _⟩ => ⟨S256x128, .f32⟩
  | .hbm, ⟨62, _⟩ => ⟨S131072x128, .f32⟩
  | .hbm, ⟨63, _⟩ => ⟨S1x128, .f32⟩
  | .hbm, ⟨64, _⟩ => ⟨S131072x128, .f32⟩
  | .hbm, ⟨65, _⟩ => ⟨S131072x128, .f32⟩
  | .hbm, ⟨66, _⟩ => ⟨S1x640000, .i32⟩
  | .hbm, ⟨67, _⟩ => ⟨S640000, .i32⟩
  | .hbm, ⟨68, _⟩ => ⟨S_, .f32⟩
  | .hbm, ⟨69, _⟩ => ⟨S40000x128, .f32⟩
  | .hbm, ⟨70, _⟩ => ⟨S640000x1, .i32⟩
  | .hbm, ⟨71, _⟩ => ⟨S40000x128, .f32⟩
  | .hbm, ⟨72, _⟩ => ⟨S_, .f32⟩
  | .hbm, ⟨73, _⟩ => ⟨S640000, .f32⟩
  | .hbm, ⟨74, _⟩ => ⟨S_, .f32⟩
  | .hbm, ⟨75, _⟩ => ⟨S40000, .f32⟩
  | .hbm, ⟨76, _⟩ => ⟨S640000x1, .i32⟩
  | .hbm, ⟨77, _⟩ => ⟨S40000, .f32⟩
  | .hbm, ⟨78, _⟩ => ⟨S_, .f32⟩
  | .hbm, ⟨79, _⟩ => ⟨S40000, .f32⟩
  | .hbm, ⟨80, _⟩ => ⟨S40000, .f32⟩
  | .hbm, ⟨81, _⟩ => ⟨S40000x1, .f32⟩
  | .hbm, ⟨82, _⟩ => ⟨S40000x128, .f32⟩
  | .hbm, ⟨83, _⟩ => ⟨S40000x128, .f32⟩
  | .hbm, ⟨84, _⟩ => ⟨S128x128, .f32⟩
  | .hbm, ⟨85, _⟩ => ⟨S40000x128, .f32⟩
  | .hbm, ⟨86, _⟩ => ⟨S1x128, .f32⟩
  | .hbm, ⟨87, _⟩ => ⟨S40000x128, .f32⟩
  | .hbm, ⟨88, _⟩ => ⟨S40000x128, .f32⟩
  | .hbm, ⟨89, _⟩ => ⟨S_, .f32⟩
  | .hbm, ⟨90, _⟩ => ⟨S40000x128, .f32⟩
  | .hbm, ⟨91, _⟩ => ⟨S40000x128, .f32⟩
  | .hbm, ⟨92, _⟩ => ⟨S131072x1, .i32⟩
  | .hbm, ⟨93, _⟩ => ⟨S131072, .i32⟩
  | .hbm, ⟨94, _⟩ => ⟨S131072x1, .i32⟩
  | .hbm, ⟨95, _⟩ => ⟨S131072, .i32⟩
  | .hbm, ⟨96, _⟩ => ⟨S_, .i32⟩
  | .hbm, ⟨97, _⟩ => ⟨S131072, .i32⟩
  | .hbm, ⟨98, _⟩ => ⟨S131072, .i1⟩
  | .hbm, ⟨99, _⟩ => ⟨S_, .i32⟩
  | .hbm, ⟨100, _⟩ => ⟨S131072, .i32⟩
  | .hbm, ⟨101, _⟩ => ⟨S131072, .i32⟩
  | .hbm, ⟨102, _⟩ => ⟨S131072, .i32⟩
  | .hbm, ⟨103, _⟩ => ⟨S131072x1, .i32⟩
  | .hbm, ⟨104, _⟩ => ⟨S131072x128, .f32⟩
  | .hbm, ⟨105, _⟩ => ⟨S_, .i32⟩
  | .hbm, ⟨106, _⟩ => ⟨S131072, .i32⟩
  | .hbm, ⟨107, _⟩ => ⟨S131072, .i1⟩
  | .hbm, ⟨108, _⟩ => ⟨S_, .i32⟩
  | .hbm, ⟨109, _⟩ => ⟨S131072, .i32⟩
  | .hbm, ⟨110, _⟩ => ⟨S131072, .i32⟩
  | .hbm, ⟨111, _⟩ => ⟨S131072, .i32⟩
  | .hbm, ⟨112, _⟩ => ⟨S131072x1, .i32⟩
  | .hbm, ⟨113, _⟩ => ⟨S131072x128, .f32⟩
  | .hbm, ⟨114, _⟩ => ⟨S131072x256, .f32⟩
  | .hbm, ⟨115, _⟩ => ⟨S256x128, .f32⟩
  | .hbm, ⟨116, _⟩ => ⟨S131072x128, .f32⟩
  | .hbm, ⟨117, _⟩ => ⟨S1x128, .f32⟩
  | .hbm, ⟨118, _⟩ => ⟨S131072x128, .f32⟩
  | .hbm, ⟨119, _⟩ => ⟨S131072x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_cst : Ref sig .tc := ⟨.hbm, 89, rfl⟩
abbrev main_call1_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_10 : Ref sig .tc := ⟨.hbm, 96, rfl⟩
abbrev main_v68 : Ref sig .tc := ⟨.hbm, 97, rfl⟩
abbrev main_v69 : Ref sig .tc := ⟨.hbm, 98, rfl⟩
abbrev main_c_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_v75 : Ref sig .tc := ⟨.hbm, 106, rfl⟩
abbrev main_v76 : Ref sig .tc := ⟨.hbm, 107, rfl⟩
abbrev main_c_13 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x640000_S1x640000_1_0 : S2x640000.Slices ![1, 0] S1x640000
  shapeCasts_S1x640000_S640000 : S1x640000.ShapeCasts S640000
  bcast_S_S40000x128 : S_.BroadcastsInDim S40000x128 (![] : Fin 0 → Fin S40000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  transposes_S128x256_S256x128_1_0 : S128x256.Transposes [1, 0] S256x128
  bcast_S1x128_S131072x128_0_1 : S1x128.BroadcastsInDim S131072x128 (![0, 1] : Fin 2 → Fin S131072x128.rank)
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  gather_S40000x128_S131072x1_S131072x128_1_0_n_n_0_1_1128_wf : GatherDims.WF S40000x128 S131072x1 S131072x128 [1] [0] [] [0] [] 1 ![1, 128]
  dot_S131072x256_S256x128_S131072x128_1_0_0_1_n_n_wf : DotDims.WF S131072x256 S256x128 S131072x128 [1] [0] [0] [1] [] []

variable [Facts₀]

def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S131072x1_S131072x128_1_0_n_n_0_1_1128 : GatherDims S40000x128 S131072x1 S131072x128 where
  offsetDims := [1]
  collapsedSliceDims := [0]
  operandBatchingDims := []
  startIndicesBatchingDims := []
  startIndexMap := [0]
  indexVectorDim := 1
  sliceSizes := ![1, 128]
  wf := gather_S40000x128_S131072x1_S131072x128_1_0_n_n_0_1_1128_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.HostStages.lean ====
/-
  What the host operations around the two launches leave in the buffers the launches read.

  Before the first launch: the aggregated table (segment sums divided by clamped counts), the transposed [128, 128] weight
  table, and the two halves of the transposed [256, 128] table. Between the launches: each projected table gathered by one
  column of the edge couples, every row whose wrapped row number falls outside 0 .. 39999 filled with one fixed word.
  The aggregated table, the transposes and the wrapped row numbers are the very terms the reference computes.
-/
import proofs.«407797_j3393024164201_2_alg».proof.Proof.Gen.KernelIdeal.Frame
import proofs.«407797_j3393024164201_2_alg».proof.Proof.Gen.ReferenceIdeal.Read
import Idealize.ShloMosaic.Lib.StableHlo.Run

set_option maxRecDepth 16384

noncomputable section

namespace Cert.KernelSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A projected table gathered by a column of row numbers, the rows whose number is outside 0 .. 39999 filled with the
    word 0x7FC00000: what the take between the launches computes from the table and the wrapped row numbers. -/
def takeFill (Ptab : FVec Ideal S40000x128 .f32) (rows : IVec S131072x1 32) : FVec Ideal S131072x128 .f32 :=
  select
    (broadcastInDim S131072x128 ![0] bcast_S131072_S131072x128_0
      ((fun x v => Host.reduce IntOp.andi x v reducesTo_S131072x1_S131072_d1 h_S_)
        (andi (cmpi .sge rows (broadcastInDim S131072x1 ![] bcast_S_S131072x1 (constantI S_ 32 0#32)))
          (cmpi .sle rows (broadcastInDim S131072x1 ![0, 1] bcast_S1x1_S131072x1_0_1
            (broadcastInDim S1x1 ![1] bcast_S1_S1x1_1 (constantI S1 32 39999#32)))))
        (constantI S_ 1 1#1)))
    (Host.gather gather_S40000x128_S131072x1_S131072x128_1_0_n_n_0_1_1128 Ptab rows)
    (broadcastInDim S131072x128 ![] bcast_S_S131072x128 (constant (F := Ideal) S_ .f32 0x7FC00000#32))

/-- The aggregated table the first launch reads is the reference's. -/
theorem agg_eq (c : Dev nD) :
    (V1 m ρ c main_v13 : S40000x128.Idx → Elt Ideal .f32)
      = Cert.ReferenceIdeal.Read.val_main_v57 (F := Ideal) (m ((c : Thread nD τ).loc main_arg1)) (m ((c : Thread nD τ).loc main_arg2)) := by
  show StableHlo.after hostOps0 (W0 m ρ c) (Proc.devRef .tc main_v13) = _
  after_results_simp
  rfl

/-- The transposed [128, 128] weight table the first launch reads is the reference's. -/
theorem wn_eq (c : Dev nD) :
    (V1 m ρ c main_v14 : S128x128.Idx → Elt Ideal .f32)
      = Cert.ReferenceIdeal.Read.val_main_v58 (F := Ideal) (m ((c : Thread nD τ).loc main_arg8)) := by
  show StableHlo.after hostOps0 (W0 m ρ c) (Proc.devRef .tc main_v14) = _
  after_results_simp
  rfl

/-- The bias the first launch reads is the argument. -/
theorem bn_eq (c : Dev nD) :
    (V1 m ρ c main_arg9 : S128.Idx → Elt Ideal .f32) = m ((c : Thread nD τ).loc main_arg9) := by
  show StableHlo.after hostOps0 (W0 m ρ c) (Proc.devRef .tc main_arg9) = _
  after_results_simp

/-- The first [128, 128] table is rows 0 .. 127 of the reference's transposed [256, 128] table. -/
theorem top_eq (c : Dev nD) :
    (V1 m ρ c main_v16 : S128x128.Idx → Elt Ideal .f32)
      = extractStridedSlice S128x128 ![0, 0]
          (Cert.ReferenceIdeal.Read.val_main_v83 (F := Ideal) (m ((c : Thread nD τ).loc main_arg10))) slices_S256x128_S128x128_0_0 := by
  show StableHlo.after hostOps0 (W0 m ρ c) (Proc.devRef .tc main_v16) = _
  after_results_simp
  rfl

/-- The second [128, 128] table is rows 128 .. 255 of it. -/
theorem bot_eq (c : Dev nD) :
    (V1 m ρ c main_v17 : S128x128.Idx → Elt Ideal .f32)
      = extractStridedSlice S128x128 ![128, 0]
          (Cert.ReferenceIdeal.Read.val_main_v83 (F := Ideal) (m ((c : Thread nD τ).loc main_arg10))) slices_S256x128_S128x128_128_0 := by
  show StableHlo.after hostOps0 (W0 m ρ c) (Proc.devRef .tc main_v17) = _
  after_results_simp
  rfl

/-- The edge couples, untouched by the first stretch and the first launch. -/
theorem couples_W2 (c : Dev nD) :
    (W2 m ρ c (Proc.devRef .tc main_arg3) : S131072x2.Idx → BitVec 32) = m ((c : Thread nD τ).loc main_arg3) := by
  rw [W2_of_ne m ρ c main_arg3 (by decide)]
  show StableHlo.after hostOps0 (W0 m ρ c) (Proc.devRef .tc main_arg3) = _
  after_results_simp

/-- The first gathered table the second launch reads: the first projected table taken by the wrapped source column. -/
theorem gtop_stage (c : Dev nD) :
    (V5 m ρ c main_v23 : S131072x128.Idx → Elt Ideal .f32)
      = takeFill (W2 m ρ c (Proc.devRef .tc main_v18_0))
          (Cert.ReferenceIdeal.Read.val_main_v73 (F := Ideal) (W2 m ρ c (Proc.devRef .tc main_arg3))) := by
  show StableHlo.after hostOps1_2 (StableHlo.after hostOps1_1 (StableHlo.after hostOps1 (W2 m ρ c))) (Proc.devRef .tc main_v23) = _
  after_results_simp
  -- the stored results are read back at their own types; both sides are then the same operations written out
  simp only [TRef.ofBuf, TRef.toBuf, cast_eq]
  rfl

/-- The second gathered table: the second projected table taken by the wrapped destination column. -/
theorem gbot_stage (c : Dev nD) :
    (V5 m ρ c main_v24 : S131072x128.Idx → Elt Ideal .f32)
      = takeFill (W2 m ρ c (Proc.devRef .tc main_v18_1))
          (Cert.ReferenceIdeal.Read.val_main_v80 (F := Ideal) (W2 m ρ c (Proc.devRef .tc main_arg3))) := by
  show StableHlo.after hostOps1_2 (StableHlo.after hostOps1_1 (StableHlo.after hostOps1 (W2 m ρ c))) (Proc.devRef .tc main_v24) = _
  after_results_simp
  -- the stored results are read back at their own types; both sides are then the same operations written out
  simp only [TRef.ofBuf, TRef.toBuf, cast_eq]
  rfl

/-- The output bias the second launch reads is the argument. -/
theorem be_eq (c : Dev nD) :
    (V5 m ρ c main_arg11 : S128.Idx → Elt Ideal .f32) = m ((c : Thread nD τ).loc main_arg11) := by
  show StableHlo.after hostOps1_2 (StableHlo.after hostOps1_1 (StableHlo.after hostOps1 (W2 m ρ c))) (Proc.devRef .tc main_arg11) = _
  after_results_simp
  rw [W2_of_ne m ρ c main_arg11 (by decide)]
  show StableHlo.after hostOps0 (W0 m ρ c) (Proc.devRef .tc main_arg11) = _
  after_results_simp

end Cert.KernelSide

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KernelBody.lean ====
/-
  What the two kernel bodies compute, entry by entry, over the extended reals.

  The first body holds a block of 5000 aggregated rows A, a [128, 128] weight table W, a bias b and two [128, 128] tables
  T and U. Its hidden block is H (p, q) = max (sum over l of A (p, l) * W (l, q) + b q) 0 (the changes of float format are
  the identity on the extended reals, a matrix product into the zero accumulator is the plain sum of products), and its two
  stores hold H times T and H times U. The second body adds two blocks and a bias row.
-/
import proofs.«407797_j3393024164201_2_alg».proof.Proof.Gen.KernelIdeal.Skeleton
import proofs.«407797_j3393024164201_2_alg».proof.Proof.LibPlainMatmul
import Idealize.ShloMosaic.Lib.Pipeline.Value
import Idealize.ShloMosaic.Lib.ValueLayout

noncomputable section

namespace Cert.KernelSide

open Idealize.ShloMosaic Idealize.ShloMosaic.ValueIdx Cert.KernelIdeal Cert.KernelIdeal.Gen

/-- The hidden block at row `p`, feature `q`: the rectified affine image of the block's row. -/
theorem hidden_block_apply (A : Vec Ideal S5000x128 .f32) (W : Vec Ideal S128x128 .f32) (b : Vec Ideal S128 .f32)
    (p : Fin 5000) (q : Fin 128) :
    k0_pay1 (F := Ideal) A W b (ix2 p q)
      = max ((∑ l : Fin 128, A (ix2 p l) * W (ix2 l q)) + b (ix1 q)) (Ideal.ofBits .f32 0x00000000#32) := by
  unfold k0_pay1
  rw [shapeCast_self, shapeCast_self]
  show max (FloatOps.matmul (F := Ideal) (DotDims.plain 5000 128 128) none (φ₁ := .bf16) (φ₂ := .bf16) A W (constant (F := Ideal) ⟨2, ![5000, 128]⟩ .f32 0x00000000#32) (ix2 p q)
      + broadcastTo ⟨2, ![5000, 128]⟩ (shapeCast ⟨2, ![1, 128]⟩ b shapeCasts_S128_S1x128) broadcasts_S1x128_S5000x128 (ix2 p q))
    (Ideal.ofBits .f32 0x00000000#32) = _
  rw [Cert.PlainMatmul.apply, broadcastTo_1b_ab_apply, shapeCast_a_1a_apply]

/-- A store of the first body at row `p`, output feature `j`: the hidden row against column `j` of the table. -/
theorem proj_top_apply (A : Vec Ideal S5000x128 .f32) (W : Vec Ideal S128x128 .f32) (b : Vec Ideal S128 .f32)
    (T : Vec Ideal S128x128 .f32) (p : Fin 5000) (j : Fin 128) :
    k0_pay2 (F := Ideal) A W b T (ix2 p j) = ∑ k : Fin 128, k0_pay1 (F := Ideal) A W b (ix2 p k) * T (ix2 k j) := by
  unfold k0_pay2
  rw [shapeCast_self]
  exact Cert.PlainMatmul.apply (M := 5000) (K := 128) (N := 128) none (k0_pay1 (F := Ideal) A W b) T p j

/-- The other store: the same hidden row against the second table. -/
theorem proj_bot_apply (A : Vec Ideal S5000x128 .f32) (W : Vec Ideal S128x128 .f32) (b : Vec Ideal S128 .f32)
    (U : Vec Ideal S128x128 .f32) (p : Fin 5000) (j : Fin 128) :
    k0_pay3 (F := Ideal) A W b U (ix2 p j) = ∑ k : Fin 128, k0_pay1 (F := Ideal) A W b (ix2 p k) * U (ix2 k j) := by
  unfold k0_pay3
  rw [shapeCast_self]
  exact Cert.PlainMatmul.apply (M := 5000) (K := 128) (N := 128) none (k0_pay1 (F := Ideal) A W b) U p j

/-- The second body at row `p`, feature `j`: the two gathered rows' entries and the bias, added. -/
theorem edge_add_apply (X Y : Vec Ideal S8192x128 .f32) (c : Vec Ideal S128 .f32) (p : Fin 8192) (j : Fin 128) :
    k1_pay1 (F := Ideal) X Y c (ix2 p j) = (X (ix2 p j) + Y (ix2 p j)) + c (ix1 j) := by
  unfold k1_pay1
  rw [shapeCast_self, shapeCast_self]
  show (X (ix2 p j) + Y (ix2 p j))
      + broadcastTo ⟨2, ![8192, 128]⟩ (shapeCast ⟨2, ![1, 128]⟩ c shapeCasts_S128_S1x128) broadcasts_S1x128_S8192x128 (ix2 p j) = _
  rw [broadcastTo_1b_ab_apply, shapeCast_a_1a_apply]

end Cert.KernelSide

end
-- ==== Proof.Spec.lean ====
/-
  The edge scores of the second graph layer, as plain formulas over the extended reals.

  A node's hidden activation is the rectified affine image of its aggregated message: at node n and feature k,
  max (sum over l of A (n, l) * W (l, k) + b k) 0.  An edge couple (s, d) is scored, at output feature j, by the
  hidden rows of its two nodes against the two halves of a [256, 128] weight table E: the rows 0 .. 127 of E meet the
  source node's activations, the rows 128 .. 255 the destination node's, and a bias is added:
  (sum over k of H (s, k) * E (k, j)) + (sum over k of H (d, k) * E (128 + k, j)) + c j.

  A row number is read off an [n, 1] column of signed 32-bit words, clamped into the table's rows 0 .. 39999.
-/
import Idealize.ShloMosaic.PureOps.Ideal
import Idealize.ShloMosaic.Lib.ValueIdx

noncomputable section

namespace Cert.Sage

open Idealize.ShloMosaic Idealize.ShloMosaic.ValueIdx

/-- The hidden activation of node `n` at feature `k`: the aggregated row times the weight column, plus the bias,
    rectified at zero (the zero written as the word both programs carry). -/
def hid (A : FVec Ideal ⟨2, ![40000, 128]⟩ .f32) (W : FVec Ideal ⟨2, ![128, 128]⟩ .f32) (b : FVec Ideal ⟨1, ![128]⟩ .f32)
    (n : Fin 40000) (k : Fin 128) : EReal :=
  max ((∑ l : Fin 128, A (ix2 n l) * W (ix2 l k)) + b (ix1 k)) (Ideal.ofBits .f32 0x00000000#32)

/-- Row `k` of the upper half of the [256, 128] table. -/
abbrev topRow (k : Fin 128) : Fin 256 := ⟨k.val, by omega⟩
/-- Row `k` of the lower half: row `128 + k` of the table. -/
abbrev botRow (k : Fin 128) : Fin 256 := ⟨128 + k.val, by omega⟩

/-- The score of an edge couple whose nodes are `s` and `d`, at output feature `j`. -/
def edge (H : Fin 40000 → Fin 128 → EReal) (E : FVec Ideal ⟨2, ![256, 128]⟩ .f32) (c : FVec Ideal ⟨1, ![128]⟩ .f32)
    (s d : Fin 40000) (j : Fin 128) : EReal :=
  ((∑ k : Fin 128, H s k * E (ix2 (topRow k) j)) + (∑ k : Fin 128, H d k * E (ix2 (botRow k) j))) + c (ix1 j)

/-- The table row a column of signed row numbers names at position `p`: the word read signed, clamped to 0 .. 39999. -/
def rowOf (idx : IVec ⟨2, ![131072, 1]⟩ 32) (p : Fin 131072) : Fin 40000 :=
  ⟨min (idx (ix2 p ⟨0, Nat.one_pos⟩)).toInt.toNat (40000 - 1), by omega⟩

end Cert.Sage

end
-- ==== Proof.RegionProj.lean ====
/-
  The first launch, read whole: each of its two result arrays is one function of the arrays it finds.

  Grid point t holds rows 5000 t .. 5000 t + 4999 of the aggregated table and the three small tables whole; the rows it
  writes back are rows 5000 t .. of "hidden activations times table". The eight points' blocks tile the 40000 rows, so
  after the launch each result array holds, at (n, j), the sum over k of hid (n, k) * T (k, j).
-/
import proofs.«407797_j3393024164201_2_alg».proof.Proof.Gen.KernelIdeal.Frame
import proofs.«407797_j3393024164201_2_alg».proof.Proof.KernelBody
import proofs.«407797_j3393024164201_2_alg».proof.Proof.Spec

set_option maxRecDepth 16384

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node table's hidden activations against a [128, 128] table: entry (n, j) is the sum over k of hid (n, k) * T (k, j). -/
def proj (A : FVec Ideal S40000x128 .f32) (W : FVec Ideal S128x128 .f32) (b : FVec Ideal S128 .f32)
    (T : FVec Ideal S128x128 .f32) : FVec Ideal S40000x128 .f32 :=
  fun i => ∑ k : Fin 128, Cert.Sage.hid A W b ⟨(i 0).val, (i 0).isLt⟩ k * T (ix2 k ⟨(i 1).val, (i 1).isLt⟩)

/-- The printed index maps over the eight grid points: the row-blocked windows move with the point, the tables stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The aggregated rows a point holds: row p of its block is row 5000 t + p of the table. -/
theorem rows_block_apply (c : Dev nD) (t : Fin cfg0.N) (y : S5000x128.Idx) (i : S40000x128.Idx)
    (h0 : (i 0).val = t.val * 5000 + (y 0).val) (h1 : (i 1).val = (y 1).val) :
    (iblk0 V c 0 t : Vec Ideal S5000x128 .f32) y = (V c main_v13 : S40000x128.Idx → Elt Ideal .f32) i := by
  obtain ⟨e0, e1, -⟩ := idx_facts0 t
  unfold iblk0
  rw [View.read_apply]
  show V c main_v13 _ = V c main_v13 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- A point holds the [128, 128] weight table whole. -/
theorem w_block_eq (c : Dev nD) (t : Fin cfg0.N) :
    (iblk0 V c 1 t : Vec Ideal S128x128 .f32) = (V c main_v14 : S128x128.Idx → Elt Ideal .f32) := by
  obtain ⟨-, -, e0, e1, -⟩ := idx_facts0 t
  funext y
  unfold iblk0
  rw [View.read_apply]
  show V c main_v14 _ = V c main_v14 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- A point holds the bias whole. -/
theorem b_block_eq (c : Dev nD) (t : Fin cfg0.N) :
    (iblk0 V c 2 t : Vec Ideal S128 .f32) = (V c main_arg9 : S128.Idx → Elt Ideal .f32) := by
  obtain ⟨-, -, -, -, e0, -⟩ := idx_facts0 t
  funext y
  unfold iblk0
  rw [View.read_apply]
  show V c main_arg9 _ = V c main_arg9 _
  congr 1
  funext a
  apply Fin.ext
  match a with
  | ⟨0, _⟩ => show win0_2.index t 0 * 128 + 1 * (y 0).val = (y 0).val; rw [e0]; omega

/-- A point holds the first [128, 128] table whole. -/
theorem t_block_eq (c : Dev nD) (t : Fin cfg0.N) :
    (iblk0 V c 3 t : Vec Ideal S128x128 .f32) = (V c main_v16 : S128x128.Idx → Elt Ideal .f32) := by
  obtain ⟨-, -, -, -, -, e0, e1, -⟩ := idx_facts0 t
  funext y
  unfold iblk0
  rw [View.read_apply]
  show V c main_v16 _ = V c main_v16 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- A point holds the second [128, 128] table whole. -/
theorem u_block_eq (c : Dev nD) (t : Fin cfg0.N) :
    (iblk0 V c 4 t : Vec Ideal S128x128 .f32) = (V c main_v17 : S128x128.Idx → Elt Ideal .f32) := by
  obtain ⟨-, -, -, -, -, -, -, e0, e1, -⟩ := idx_facts0 t
  funext y
  unfold iblk0
  rw [View.read_apply]
  show V c main_v17 _ = V c main_v17 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The hidden block of a point is the hidden activations of its rows. -/
theorem hidden_block_eq (c : Dev nD) (t : Fin cfg0.N) (p : Fin 5000) (k : Fin 128) (n : Fin 40000)
    (hn : n.val = t.val * 5000 + p.val) :
    k0_pay1 (F := Ideal) (iblk0 V c 0 t) (iblk0 V c 1 t) (iblk0 V c 2 t) (ix2 p k)
      = Cert.Sage.hid (V c main_v13) (V c main_v14) (V c main_arg9) n k := by
  rw [hidden_block_apply, w_block_eq, b_block_eq]
  unfold Cert.Sage.hid
  congr 2
  refine Finset.sum_congr rfl fun l _ => ?_
  rw [rows_block_apply V c t (ix2 p l) (ix2 n l) hn rfl]

/-- WHAT POINT t WRITES BACK through the first result window: its rows of `proj` over the first table. -/
theorem flushed_top_eq (c : Dev nD) (t : Fin cfg0.N) :
    (dat0 V c).flushed 5 t = ((cfg0.win 5).blk t).view.read (Elt Ideal)
      (proj (V c main_v13) (V c main_v14) (V c main_arg9) (V c main_v16)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨-, -, -, -, -, -, -, -, -, e0, e1, -⟩ := idx_facts0 t
  funext y
  obtain ⟨p, j, rfl⟩ : ∃ (p : Fin 5000) (j : Fin 128), y = ix2 p j := ⟨y 0, y 1, eq_ix2 y⟩
  have ht : t.val < 8 := lt_of_lt_of_eq t.isLt N_0
  rw [View.read_apply]
  refine (proj_top_apply _ _ _ _ p j).trans ?_
  show _ = proj (V c main_v13) (V c main_v14) (V c main_arg9) (V c main_v16) (((cfg0.win 5).blk t).view.emb (ix2 p j))
  have hemb : ((cfg0.win 5).blk t).view.emb (ix2 p j) = (ix2 (⟨t.val * 5000 + p.val, by omega⟩ : Fin 40000) j : S40000x128.Idx) := by
    funext a
    apply Fin.ext
    match a with
    | ⟨0, _⟩ => show win0_5.index t 0 * 5000 + 1 * p.val = t.val * 5000 + p.val; rw [e0]; omega
    | ⟨1, _⟩ => show win0_5.index t 1 * 128 + 1 * j.val = j.val; rw [e1]; omega
  rw [hemb]
  unfold proj
  refine Finset.sum_congr rfl fun k _ => ?_
  rw [hidden_block_eq V c t p k ⟨t.val * 5000 + p.val, by omega⟩ rfl, t_block_eq]

/-- The same through the second result window, over the second table. -/
theorem flushed_bot_eq (c : Dev nD) (t : Fin cfg0.N) :
    (dat0 V c).flushed 6 t = ((cfg0.win 6).blk t).view.read (Elt Ideal)
      (proj (V c main_v13) (V c main_v14) (V c main_arg9) (V c main_v17)) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S128) hz1]
  obtain ⟨-, -, -, -, -, -, -, -, -, -, -, e0, e1⟩ := idx_facts0 t
  funext y
  obtain ⟨p, j, rfl⟩ : ∃ (p : Fin 5000) (j : Fin 128), y = ix2 p j := ⟨y 0, y 1, eq_ix2 y⟩
  have ht : t.val < 8 := lt_of_lt_of_eq t.isLt N_0
  rw [View.read_apply]
  refine (proj_bot_apply _ _ _ _ p j).trans ?_
  show _ = proj (V c main_v13) (V c main_v14) (V c main_arg9) (V c main_v17) (((cfg0.win 6).blk t).view.emb (ix2 p j))
  have hemb : ((cfg0.win 6).blk t).view.emb (ix2 p j) = (ix2 (⟨t.val * 5000 + p.val, by omega⟩ : Fin 40000) j : S40000x128.Idx) := by
    funext a
    apply Fin.ext
    match a with
    | ⟨0, _⟩ => show win0_6.index t 0 * 5000 + 1 * p.val = t.val * 5000 + p.val; rw [e0]; omega
    | ⟨1, _⟩ => show win0_6.index t 1 * 128 + 1 * j.val = j.val; rw [e1]; omega
  rw [hemb]
  unfold proj
  refine Finset.sum_congr rfl fun k _ => ?_
  rw [hidden_block_eq V c t p k ⟨t.val * 5000 + p.val, by omega⟩ rfl, u_block_eq]

/-- An index of a result array is in point t's block iff its row is among rows 5000 t .. 5000 t + 4999. -/
theorem mem_blk_top (t : Fin cfg0.N) (i : S40000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18_0).slice (win0_5.rect t)).set ↔ _
  rw [View.set_slice_whole, Rect.mem_set_unit]
  exact Iff.rfl

theorem mem_blk_bot (t : Fin cfg0.N) (i : S40000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18_1).slice (win0_6.rect t)).set ↔ _
  rw [View.set_slice_whole, Rect.mem_set_unit]
  exact Iff.rfl

/-- The eight blocks of 5000 rows cover the 40000 rows: row r is in block r / 5000. -/
theorem cover_top (i : S40000x128.Idx) :
    ∃ t : Fin cfg0.N, (cfg0.win 5).flush t = true ∧ i ∈ ((cfg0.win 5).blk t).view.set := by
  have h0 : (i 0).val < 40000 := (i 0).isLt
  have h1 : (i 1).val < 128 := (i 1).isLt
  have hN : cfg0.N = 8 := N_0
  refine ⟨⟨(i 0).val / 5000, by rw [hN]; omega⟩, flush0_5 _, ?_⟩
  rw [mem_blk_top]
  obtain ⟨-, -, -, -, -, -, -, -, -, e0, e1, -⟩ := idx_facts0 ⟨(i 0).val / 5000, by rw [hN]; omega⟩
  intro a
  match a with
  | ⟨0, _⟩ =>
    show win0_5.index _ 0 * 5000 ≤ (i 0).val ∧ (i 0).val < win0_5.index _ 0 * 5000 + 5000
    rw [e0]; show (i 0).val / 5000 * 5000 ≤ (i 0).val ∧ (i 0).val < (i 0).val / 5000 * 5000 + 5000; omega
  | ⟨1, _⟩ =>
    show win0_5.index _ 1 * 128 ≤ (i 1).val ∧ (i 1).val < win0_5.index _ 1 * 128 + 128
    rw [e1]; omega

theorem cover_bot (i : S40000x128.Idx) :
    ∃ t : Fin cfg0.N, (cfg0.win 6).flush t = true ∧ i ∈ ((cfg0.win 6).blk t).view.set := by
  have h0 : (i 0).val < 40000 := (i 0).isLt
  have h1 : (i 1).val < 128 := (i 1).isLt
  have hN : cfg0.N = 8 := N_0
  refine ⟨⟨(i 0).val / 5000, by rw [hN]; omega⟩, flush0_6 _, ?_⟩
  rw [mem_blk_bot]
  obtain ⟨-, -, -, -, -, -, -, -, -, -, -, e0, e1⟩ := idx_facts0 ⟨(i 0).val / 5000, by rw [hN]; omega⟩
  intro a
  match a with
  | ⟨0, _⟩ =>
    show win0_6.index _ 0 * 5000 ≤ (i 0).val ∧ (i 0).val < win0_6.index _ 0 * 5000 + 5000
    rw [e0]; show (i 0).val / 5000 * 5000 ≤ (i 0).val ∧ (i 0).val < (i 0).val / 5000 * 5000 + 5000; omega
  | ⟨1, _⟩ =>
    show win0_6.index _ 1 * 128 ≤ (i 1).val ∧ (i 1).val < win0_6.index _ 1 * 128 + 128
    rw [e1]; omega

/-- THE FIRST RESULT ARRAY after the launch: the hidden activations against the first table. -/
theorem final_top (c : Dev nD) :
    (dat0 V c).arrAt 5 cfg0.N = proj (V c main_v13) (V c main_v14) (V c main_arg9) (V c main_v16) :=
  (dat0 V c).arrAt_eq_of_cover 5 _ (fun t _ => flushed_top_eq V c t) cover_top

/-- THE SECOND RESULT ARRAY after the launch: the hidden activations against the second table. -/
theorem final_bot (c : Dev nD) :
    (dat0 V c).arrAt 6 cfg0.N = proj (V c main_v13) (V c main_v14) (V c main_arg9) (V c main_v17) :=
  (dat0 V c).arrAt_eq_of_cover 6 _ (fun t _ => flushed_bot_eq V c t) cover_bot

end Cert.KernelSide

end
-- ==== Proof.RegionAdd.lean ====
/-
  The second launch, read whole: its result array is the entrywise sum of the two gathered tables and the bias row.

  Grid point t holds rows 8192 t .. 8192 t + 8191 of both gathered tables and the bias whole, and writes back the same rows
  of their sum; the sixteen points' blocks tile the 131072 rows.
-/
import proofs.«407797_j3393024164201_2_alg».proof.Proof.Gen.KernelIdeal.Frame
import proofs.«407797_j3393024164201_2_alg».proof.Proof.KernelBody

set_option maxRecDepth 16384

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a; rfl

/-- Two [131072, 128] tables and a bias row, added entrywise. -/
def added (X Y : FVec Ideal S131072x128 .f32) (cb : FVec Ideal S128 .f32) : FVec Ideal S131072x128 .f32 :=
  fun i => (X i + Y i) + cb (ix1 ⟨(i 1).val, (i 1).isLt⟩)

/-- The printed index maps over the sixteen grid points: the row-blocked windows move with the point, the bias stays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row p of the first gathered block at point t is row 8192 t + p of the first gathered table. -/
theorem x_block_apply (c : Dev nD) (t : Fin cfg1.N) (y : S8192x128.Idx) (i : S131072x128.Idx)
    (h0 : (i 0).val = t.val * 8192 + (y 0).val) (h1 : (i 1).val = (y 1).val) :
    (iblk1 V c 0 t : Vec Ideal S8192x128 .f32) y = (V c main_v23 : S131072x128.Idx → Elt Ideal .f32) i := by
  obtain ⟨e0, e1, -⟩ := idx_facts1 t
  unfold iblk1
  rw [View.read_apply]
  show V c main_v23 _ = V c main_v23 _
  congr 1
  funext a
  apply Fin.ext
  match a with
  | ⟨0, _⟩ => show win1_0.index t 0 * 8192 + 1 * (y 0).val = (i 0).val; rw [e0, h0]; omega
  | ⟨1, _⟩ => show win1_0.index t 1 * 128 + 1 * (y 1).val = (i 1).val; rw [e1, h1]; omega

/-- The same of the second gathered table. -/
theorem y_block_apply (c : Dev nD) (t : Fin cfg1.N) (y : S8192x128.Idx) (i : S131072x128.Idx)
    (h0 : (i 0).val = t.val * 8192 + (y 0).val) (h1 : (i 1).val = (y 1).val) :
    (iblk1 V c 1 t : Vec Ideal S8192x128 .f32) y = (V c main_v24 : S131072x128.Idx → Elt Ideal .f32) i := by
  obtain ⟨-, -, e0, e1, -⟩ := idx_facts1 t
  unfold iblk1
  rw [View.read_apply]
  show V c main_v24 _ = V c main_v24 _
  congr 1
  funext a
  apply Fin.ext
  match a with
  | ⟨0, _⟩ => show win1_1.index t 0 * 8192 + 1 * (y 0).val = (i 0).val; rw [e0, h0]; omega
  | ⟨1, _⟩ => show win1_1.index t 1 * 128 + 1 * (y 1).val = (i 1).val; rw [e1, h1]; omega

/-- A point holds the bias whole. -/
theorem c_block_eq (c : Dev nD) (t : Fin cfg1.N) :
    (iblk1 V c 2 t : Vec Ideal S128 .f32) = (V c main_arg11 : S128.Idx → Elt Ideal .f32) := by
  obtain ⟨-, -, -, -, e0, -⟩ := idx_facts1 t
  funext y
  unfold iblk1
  rw [View.read_apply]
  show V c main_arg11 _ = V c main_arg11 _
  congr 1
  funext a
  apply Fin.ext
  match a with
  | ⟨0, _⟩ => show win1_2.index t 0 * 128 + 1 * (y 0).val = (y 0).val; rw [e0]; omega

/-- WHAT POINT t WRITES BACK: its rows of the sum. -/
theorem flushed_add_eq (c : Dev nD) (t : Fin cfg1.N) :
    (dat1 V c).flushed 3 t = ((cfg1.win 3).blk t).view.read (Elt Ideal)
      (added (V c main_v23) (V c main_v24) (V c main_arg11)) := by
  show (cfg1.win 3).cut (grid1.coords t) ((dat1 V c).after 3 t) = _
  rw [after1_3]
  unfold out1_3
  rw [View.canon_unit_zero hz2']
  simp only [View.ld_unit_zero (S := S8192x128) hz2', View.ld_unit_zero (S := S128) hz1']
  obtain ⟨-, -, -, -, -, e0, e1⟩ := idx_facts1 t
  funext y
  obtain ⟨p, j, rfl⟩ : ∃ (p : Fin 8192) (j : Fin 128), y = ix2 p j := ⟨y 0, y 1, eq_ix2 y⟩
  have ht : t.val < 16 := lt_of_lt_of_eq t.isLt N_1
  rw [View.read_apply]
  refine (edge_add_apply _ _ _ p j).trans ?_
  show _ = added (V c main_v23) (V c main_v24) (V c main_arg11) (((cfg1.win 3).blk t).view.emb (ix2 p j))
  have hemb : ((cfg1.win 3).blk t).view.emb (ix2 p j) = (ix2 (⟨t.val * 8192 + p.val, by omega⟩ : Fin 131072) j : S131072x128.Idx) := by
    funext a
    apply Fin.ext
    match a with
    | ⟨0, _⟩ => show win1_3.index t 0 * 8192 + 1 * p.val = t.val * 8192 + p.val; rw [e0]; omega
    | ⟨1, _⟩ => show win1_3.index t 1 * 128 + 1 * j.val = j.val; rw [e1]; omega
  rw [hemb]
  unfold added
  rw [x_block_apply V c t (ix2 p j) (ix2 ⟨t.val * 8192 + p.val, by omega⟩ j) rfl rfl,
    y_block_apply V c t (ix2 p j) (ix2 ⟨t.val * 8192 + p.val, by omega⟩ j) rfl rfl, c_block_eq]

/-- An index of the result array is in point t's block iff its row is among rows 8192 t .. 8192 t + 8191. -/
theorem mem_blk_add (t : Fin cfg1.N) (i : S131072x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v25).slice (win1_3.rect t)).set ↔ _
  rw [View.set_slice_whole, Rect.mem_set_unit]
  exact Iff.rfl

/-- The sixteen blocks of 8192 rows cover the 131072 rows: row r is in block r / 8192. -/
theorem cover_add (i : S131072x128.Idx) :
    ∃ t : Fin cfg1.N, (cfg1.win 3).flush t = true ∧ i ∈ ((cfg1.win 3).blk t).view.set := by
  have h0 : (i 0).val < 131072 := (i 0).isLt
  have h1 : (i 1).val < 128 := (i 1).isLt
  have hN : cfg1.N = 16 := N_1
  refine ⟨⟨(i 0).val / 8192, by rw [hN]; omega⟩, flush1_3 _, ?_⟩
  rw [mem_blk_add]
  obtain ⟨-, -, -, -, -, e0, e1⟩ := idx_facts1 ⟨(i 0).val / 8192, by rw [hN]; omega⟩
  intro a
  match a with
  | ⟨0, _⟩ =>
    show win1_3.index _ 0 * 8192 ≤ (i 0).val ∧ (i 0).val < win1_3.index _ 0 * 8192 + 8192
    rw [e0]; show (i 0).val / 8192 * 8192 ≤ (i 0).val ∧ (i 0).val < (i 0).val / 8192 * 8192 + 8192; omega
  | ⟨1, _⟩ =>
    show win1_3.index _ 1 * 128 ≤ (i 1).val ∧ (i 1).val < win1_3.index _ 1 * 128 + 128
    rw [e1]; omega

/-- THE RESULT ARRAY after the launch: the two gathered tables and the bias row, added. -/
theorem final_add (c : Dev nD) :
    (dat1 V c).arrAt 3 cfg1.N = added (V c main_v23) (V c main_v24) (V c main_arg11) :=
  (dat1 V c).arrAt_eq_of_cover 3 _ (fun t _ => flushed_add_eq V c t) cover_add

end Cert.KernelSide

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.TakeRows.lean ====
/-
  The filled take, read at an entry, when every wrapped row number is a row of the table.

  The take's validity bit of row b is the conjunction, over the one entry of the row-number column at b, of
  "0 <= number" and "number <= 39999"; when every entry passes, every bit is 1, the fill word is never chosen, and the
  take at (b, j) is the table at (the row the number names, j).
-/
import proofs.«407797_j3393024164201_2_alg».proof.Proof.HostStages
import proofs.«407797_j3393024164201_2_alg».proof.Proof.Spec
import proofs.«407797_j3393024164201_2_alg».proof.Proof.LibGatherRows
import Idealize.ShloMosaic.Lib.ReduceAll
import Idealize.ShloMosaic.Lib.Pipeline.Value

set_option maxRecDepth 16384

noncomputable section

namespace Cert.KernelSide

open Idealize.ShloMosaic Idealize.ShloMosaic.ValueIdx
open Cert.KernelIdeal Cert.KernelIdeal.Gen

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduce by `and` from the constant 1 over an array of ones is 1 everywhere. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_ones x _ fun n _ => hx n

/-- THE FILLED TAKE AT (b, j), every row number in range: the table at the named row, column j. -/
theorem takeFill_apply (Ptab : FVec Ideal S40000x128 .f32) (rows : IVec S131072x1 32)
    (hrows : ∀ i, IntOp.andi (IntOp.cmpi .sge (rows i) 0#32) (IntOp.cmpi .sle (rows i) 39999#32) = 1#1)
    (b : Fin 131072) (j : Fin 128) :
    takeFill Ptab rows (ix2 b j) = Ptab (ix2 (Cert.Sage.rowOf rows b) j) := by
  unfold takeFill
  rw [select_apply]
  have hmask : broadcastInDim S131072x128 ![0] bcast_S131072_S131072x128_0
      ((fun x v => Host.reduce IntOp.andi x v reducesTo_S131072x1_S131072_d1 h_S_)
        (andi (cmpi .sge rows (broadcastInDim S131072x1 ![] bcast_S_S131072x1 (constantI S_ 32 0#32)))
          (cmpi .sle rows (broadcastInDim S131072x1 ![0, 1] bcast_S1x1_S131072x1_0_1
            (broadcastInDim S1x1 ![1] bcast_S1_S1x1_1 (constantI S1 32 39999#32)))))
        (constantI S_ 1 1#1)) (ix2 b j) = 1#1 := by
    rw [broadcastInDim_apply _ bcast_S131072_S131072x128_0 _ (ix2 b j) (ix1 b) (fun a => match a with
      | ⟨0, _⟩ => by show b.val = if (131072 : Nat) = 1 then 0 else b.val; rw [if_neg (by decide)])]
    exact reduce_andi_ones _ _ _ _ (fun _ => rfl) (fun i => hrows i) _
  rw [hmask]
  show Host.gather (Idealize.ShloMosaic.GatherRows.rowDims 40000 128 131072 _) Ptab rows (ix2 b j) = _
  rw [Idealize.ShloMosaic.GatherRows.gather_rows_apply (by decide)]
  rfl

end Cert.KernelSide

end
-- ==== Proof.Domain.lean ====
/-
  The index range the precondition states, and what it gives the two row lookups.
-/
import proofs.«407797_j3393024164201_2_alg».proof.Pre_finite_inputs
import proofs.«407797_j3393024164201_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Domain

open Idealize.ShloMosaic Cert.Pre_finite_inputs

/-- A row number as numpy reads it: a negative one counts from the end of the 40000 rows. -/
def wrap (x : BitVec 32) : BitVec 32 := Scalar.select (IntOp.cmpi .slt x 0#32) (IntOp.addi x 40000#32) x

/-- A row number between -40000 and 39999 wraps into 0 .. 39999. -/
theorem wrap_ok (x : BitVec 32) (h1 : IntOp.cmpi .sge x 4294927296#32 = 1#1) (h2 : IntOp.cmpi .slt x 40000#32 = 1#1) :
    IntOp.andi (IntOp.cmpi .sge (wrap x) 0#32) (IntOp.cmpi .sle (wrap x) 39999#32) = 1#1 := by
  -- the four literals read as signed integers
  have e1 : (4294927296#32 : BitVec 32).toInt = -40000 := by decide
  have e2 : (40000#32 : BitVec 32).toInt = 40000 := by decide
  have e3 : (0#32 : BitVec 32).toInt = 0 := by decide
  have e4 : (39999#32 : BitVec 32).toInt = 39999 := by decide
  rw [IntOp.cmpi_sge, e1] at h1
  rw [IntOp.cmpi_slt, e2] at h2
  rw [IntOp.andi_eq_one, IntOp.cmpi_sge, IntOp.cmpi_sle, e3, e4]
  unfold wrap Scalar.select
  by_cases hx : x.toInt < 0
  · -- a negative row number: 40000 is added, and the sum does not leave the signed range
    have hc : IntOp.cmpi .slt x 0#32 = 1 := IntOp.cmpi_slt.2 (by rw [e3]; exact hx)
    rw [if_pos hc]
    have ha : (IntOp.addi x 40000#32).toInt = x.toInt + 40000 := by
      show (x + 40000#32).toInt = _
      rw [BitVec.toInt_add, e2]
      exact Int.bmod_eq_of_le_mul_two (by omega) (by omega)
    rw [ha]
    omega
  · -- a nonnegative row number is kept
    have hc : ¬ IntOp.cmpi .slt x 0#32 = 1 := fun hc => hx (by have := IntOp.cmpi_slt.1 hc; rwa [e3] at this)
    rw [if_neg hc]
    omega

/-- The last part of the precondition: its value 1 says the lower comparison it was handed and its own upper
    comparison hold at every entry (the final conjunct is an `and` over all entries of the two comparisons). -/
private theorem part3_elim (a3 : IVec S131072x2 32) (v48 : IVec S_ 1) (v50 : IVec S131072x2 1) (j : S_.Idx)
    (h : fn_part3 (F := Ideal) a3 v48 v50 j = 1#1) (i : S131072x2.Idx) :
    v50 i = 1#1 ∧ IntOp.cmpi .slt (a3 i) 40000#32 = 1#1 := by
  haveI : Subsingleton S_.Idx := ⟨fun a b => funext fun d => d.elim0⟩
  unfold fn_part3 at h
  obtain ⟨-, h54⟩ := IntOp.andi_eq_one.1 h
  have h53 := Host.reduce_andi_all _ _ _ _ j h54 i
  exact IntOp.andi_eq_one.1 h53

/-- Under the precondition every entry of the edge couples is a row number between -40000 and 39999. -/
theorem couples_of_pre (x0 : FVec Ideal S40000x128 .f32) (x1 : IVec S2x640000 32) (x2 : FVec Ideal S640000x128 .f32)
    (x3 : IVec S131072x2 32) (x4 : FVec Ideal S128x128 .f32) (x5 : FVec Ideal S128 .f32) (x6 : FVec Ideal S128x256 .f32)
    (x7 : FVec Ideal S128 .f32) (x8 : FVec Ideal S128x128 .f32) (x9 : FVec Ideal S128 .f32) (x10 : FVec Ideal S128x256 .f32)
    (x11 : FVec Ideal S128 .f32)
    (h : Cert.Pre_finite_inputs.fn (F := Ideal) x0 x1 x2 x3 x4 x5 x6 x7 x8 x9 x10 x11 = fun _ => 1#1) (i : S131072x2.Idx) :
    IntOp.cmpi .sge (x3 i) 4294927296#32 = 1#1 ∧ IntOp.cmpi .slt (x3 i) 40000#32 = 1#1 := by
  have h0 := congrFun h ValueIdx.ix0
  -- the chain of parts ends in the last one, handed the lower comparison of every entry with -40000
  unfold fn fn_part1 fn_part2 at h0
  exact part3_elim _ _ _ _ h0 i

end Cert.Domain

end
-- ==== Proof.RowNumbers.lean ====
/-
  The wrapped row numbers of the two columns of the edge couples, entry by entry, and their range under the precondition.
-/
import proofs.«407797_j3393024164201_2_alg».proof.Proof.Gen.ReferenceIdeal.Read
import proofs.«407797_j3393024164201_2_alg».proof.Proof.Domain

noncomputable section

namespace Cert.RefSide

open Idealize.ShloMosaic Idealize.ShloMosaic.ValueIdx Cert.ReferenceIdeal Cert.ReferenceIdeal.Gen Cert.ReferenceIdeal.Read

/-- The source column's wrapped row number at position b is the wrap of the couple's first entry. -/
theorem src_rows_apply (x3 : IVec S131072x2 32) (i : S131072x1.Idx) :
    val_main_v73 (F := Ideal) x3 i = Cert.Domain.wrap (x3 (ix2 ⟨(i 0).val, (i 0).isLt⟩ (0 : Fin 2))) := by
  rw [val_main_v73_apply, val_main_v72_apply, val_main_v69_apply, val_main_v68_apply, val_main_c_10_apply,
    val_main_v71_apply, val_main_v70_apply, val_main_c_11_apply, val_main_v65_apply, val_main_v64_apply]
  unfold Cert.Domain.wrap
  have hi : idx_main_v64 (idx_main_v65 (idx_main_v73 i)) = ix2 ⟨(i 0).val, (i 0).isLt⟩ (0 : Fin 2) := by
    funext a
    apply Fin.ext
    match a with
    | ⟨0, _⟩ => show (i 0).val / 1 = (i 0).val; omega
    | ⟨1, _⟩ => rfl
  rw [hi]
  rfl

/-- The destination column's wrapped row number at position b is the wrap of the couple's second entry. -/
theorem dst_rows_apply (x3 : IVec S131072x2 32) (i : S131072x1.Idx) :
    val_main_v80 (F := Ideal) x3 i = Cert.Domain.wrap (x3 (ix2 ⟨(i 0).val, (i 0).isLt⟩ (1 : Fin 2))) := by
  rw [val_main_v80_apply, val_main_v79_apply, val_main_v76_apply, val_main_v75_apply, val_main_c_12_apply,
    val_main_v78_apply, val_main_v77_apply, val_main_c_13_apply, val_main_v67_apply, val_main_v66_apply]
  unfold Cert.Domain.wrap
  have hi : idx_main_v66 (idx_main_v67 (idx_main_v80 i)) = ix2 ⟨(i 0).val, (i 0).isLt⟩ (1 : Fin 2) := by
    funext a
    apply Fin.ext
    match a with
    | ⟨0, _⟩ => show (i 0).val / 1 = (i 0).val; omega
    | ⟨1, _⟩ => show 1 + 0 = 1; rfl
  rw [hi]
  rfl

/-- Under the range of the couples both columns' wrapped row numbers are rows of the table. -/
theorem rows_in_range (x3 : IVec S131072x2 32)
    (h : ∀ i : S131072x2.Idx, IntOp.cmpi .sge (x3 i) 4294927296#32 = 1#1 ∧ IntOp.cmpi .slt (x3 i) 40000#32 = 1#1) :
    (∀ i, IntOp.andi (IntOp.cmpi .sge (val_main_v73 (F := Ideal) x3 i) 0#32) (IntOp.cmpi .sle (val_main_v73 (F := Ideal) x3 i) 39999#32) = 1#1)
    ∧ (∀ i, IntOp.andi (IntOp.cmpi .sge (val_main_v80 (F := Ideal) x3 i) 0#32) (IntOp.cmpi .sle (val_main_v80 (F := Ideal) x3 i) 39999#32) = 1#1) :=
  ⟨fun i => by rw [src_rows_apply]; exact Cert.Domain.wrap_ok _ (h _).1 (h _).2,
   fun i => by rw [dst_rows_apply]; exact Cert.Domain.wrap_ok _ (h _).1 (h _).2⟩

end Cert.RefSide

end
-- ==== Proof.KernelValue.lean ====
/-
  The kernel program's result, entry by entry: the second launch's sum of the two takes and the bias, each take a row of a
  projected table, each projected table the hidden activations against one half of the transposed [256, 128] table.
-/
import proofs.«407797_j3393024164201_2_alg».proof.Proof.HostStages
import proofs.«407797_j3393024164201_2_alg».proof.Proof.RegionProj
import proofs.«407797_j3393024164201_2_alg».proof.Proof.RegionAdd
import proofs.«407797_j3393024164201_2_alg».proof.Proof.TakeRows
import proofs.«407797_j3393024164201_2_alg».proof.Proof.RowNumbers
import Idealize.ShloMosaic.Lib.ValueLayout

set_option maxRecDepth 16384

noncomputable section

namespace Cert.KernelSide

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- THE KERNEL PROGRAM'S RESULT at couple b, feature j, the couples' entries between -40000 and 39999. -/
theorem kernel_result_apply (c : Dev nD)
    (hdom : ∀ i : S131072x2.Idx, IntOp.cmpi .sge ((m ((c : Thread nD τ).loc main_arg3) : S131072x2.Idx → BitVec 32) i) 4294927296#32 = 1#1
      ∧ IntOp.cmpi .slt ((m ((c : Thread nD τ).loc main_arg3) : S131072x2.Idx → BitVec 32) i) 40000#32 = 1#1)
    (b : Fin 131072) (j : Fin 128) :
    (W6 m ρ c (Proc.devRef .tc main_v25) : S131072x128.Idx → Elt Ideal .f32) (ix2 b j)
      = Cert.Sage.edge
          (fun n k => Cert.Sage.hid
            (Cert.ReferenceIdeal.Read.val_main_v57 (F := Ideal) (m ((c : Thread nD τ).loc main_arg1)) (m ((c : Thread nD τ).loc main_arg2)))
            (Cert.ReferenceIdeal.Read.val_main_v58 (F := Ideal) (m ((c : Thread nD τ).loc main_arg8)))
            (m ((c : Thread nD τ).loc main_arg9)) n k)
          (Cert.ReferenceIdeal.Read.val_main_v83 (F := Ideal) (m ((c : Thread nD τ).loc main_arg10)))
          (m ((c : Thread nD τ).loc main_arg11))
          (Cert.Sage.rowOf (Cert.ReferenceIdeal.Read.val_main_v73 (F := Ideal) (m ((c : Thread nD τ).loc main_arg3))) b)
          (Cert.Sage.rowOf (Cert.ReferenceIdeal.Read.val_main_v80 (F := Ideal) (m ((c : Thread nD τ).loc main_arg3))) b) j := by
  obtain ⟨hs, hd⟩ := Cert.RefSide.rows_in_range _ hdom
  rw [show W6 m ρ c (Proc.devRef .tc main_v25) = (dat1 (V5 m ρ) c).arrAt 3 cfg1.N from W6_arr m ρ c 3, final_add]
  unfold added
  rw [gtop_stage, gbot_stage, be_eq, couples_W2]
  rw [takeFill_apply _ _ hs, takeFill_apply _ _ hd]
  rw [show W2 m ρ c (Proc.devRef .tc main_v18_0) = (dat0 (V1 m ρ) c).arrAt 5 cfg0.N from W2_arr m ρ c 5, final_top,
    show W2 m ρ c (Proc.devRef .tc main_v18_1) = (dat0 (V1 m ρ) c).arrAt 6 cfg0.N from W2_arr m ρ c 6, final_bot]
  unfold proj Cert.Sage.edge
  rw [agg_eq, wn_eq, bn_eq, top_eq, bot_eq]
  -- both sides are (a sum over 128) + (a sum over 128) + a bias entry: compare them piece by piece
  refine congrArg₂ (· + ·) (congrArg₂ (· + ·) ?_ ?_) ?_
  · -- the source node's half: row k of the first table is row k of the joined table
    refine Finset.sum_congr rfl fun k _ => congrArg₂ (· * ·) rfl ?_
    exact slice2_axis0_apply 0 _ _ k j (Cert.Sage.topRow k) (Nat.zero_add _).symm
  · -- the destination node's half: row k of the second table is row 128 + k of the joined table
    refine Finset.sum_congr rfl fun k _ => congrArg₂ (· * ·) rfl ?_
    exact slice2_axis0_apply 128 _ _ k j (Cert.Sage.botRow k) rfl
  · rfl

end Cert.KernelSide

end
-- ==== Proof.RefAtIndex.lean ====
/-
  The reference's result read at an index.
-/
import proofs.«407797_j3393024164201_2_alg».proof.Proof.Gen.ReferenceIdeal.Read
import proofs.«407797_j3393024164201_2_alg».proof.Proof.Spec
import proofs.«407797_j3393024164201_2_alg».proof.Proof.LibGatherRows

noncomputable section

namespace Cert.RefSide

open Idealize.ShloMosaic Idealize.ShloMosaic.ValueIdx Cert.ReferenceIdeal Cert.ReferenceIdeal.Gen Cert.ReferenceIdeal.Read

/-! ## The hidden layer -/

/-- The product's left index at result `(n, k)`, summand `l`: row `n`, column `l`. -/
private theorem lidx59_ix (n : Fin 40000) (k l : Fin 128) : lidx_main_v59 (ix2 n k) l = ix2 n l :=
  funext fun a => Fin.ext (by match a with | ⟨0, _⟩ => rfl | ⟨1, _⟩ => rfl)

/-- The product's right index at result `(n, k)`, summand `l`: row `l`, column `k`. -/
private theorem ridx59_ix (n : Fin 40000) (k l : Fin 128) : ridx_main_v59 (ix2 n k) l = ix2 l k :=
  funext fun a => Fin.ext (by match a with | ⟨0, _⟩ => rfl | ⟨1, _⟩ => rfl)

/-- The bias, broadcast along the rows, is read at the column. -/
private theorem bias61_ix (n : Fin 40000) (k : Fin 128) : idx_main_v60 (idx_main_v61 (ix2 n k)) = ix1 k :=
  funext fun a => Fin.ext (by match a with | ⟨0, _⟩ => rfl)

/-- The reference's hidden activations (its second layer's rectified affine map) at node `n`, feature `k`. -/
theorem hidden_apply (x1 : IVec S2x640000 32) (x2 : FVec Ideal S640000x128 .f32) (x8 : FVec Ideal S128x128 .f32)
    (x9 : FVec Ideal S128 .f32) (n : Fin 40000) (k : Fin 128) :
    val_main_v63 (F := Ideal) x1 x2 x8 x9 (ix2 n k)
      = Cert.Sage.hid (val_main_v57 (F := Ideal) x1 x2) (val_main_v58 (F := Ideal) x8) x9 n k := by
  rw [val_main_v63_apply, val_main_v62_apply, val_main_v59_apply, val_main_v61_apply, val_main_v60_apply,
    val_main_call1_v0_apply, val_main_call1_cst_apply, bias61_ix]
  simp only [lidx59_ix, ridx59_ix]
  unfold Cert.Sage.hid
  rfl

/-! ## The edge score -/

/-- A sum over the 256 rows of the joined table is the sum over its upper half plus the sum over its lower half. -/
private theorem sum_halves (f : Fin 256 → EReal) :
    ∑ k : Fin 256, f k = (∑ k : Fin 128, f (Cert.Sage.topRow k)) + ∑ k : Fin 128, f (Cert.Sage.botRow k) :=
  Fin.sum_univ_add (a := 128) (b := 128) f

/-- The second product's left index at result `(b, j)`, summand `k`: row `b`, column `k`. -/
private theorem lidx84_ix (b : Fin 131072) (j : Fin 128) (k : Fin 256) : lidx_main_v84 (ix2 b j) k = ix2 b k :=
  funext fun a => Fin.ext (by match a with | ⟨0, _⟩ => rfl | ⟨1, _⟩ => rfl)

/-- The second product's right index at result `(b, j)`, summand `k`: row `k`, column `j`. -/
private theorem ridx84_ix (b : Fin 131072) (j : Fin 128) (k : Fin 256) : ridx_main_v84 (ix2 b j) k = ix2 k j :=
  funext fun a => Fin.ext (by match a with | ⟨0, _⟩ => rfl | ⟨1, _⟩ => rfl)

/-- The second bias, broadcast along the rows, is read at the column. -/
private theorem bias86_ix (b : Fin 131072) (j : Fin 128) : idx_main_v85 (idx_main_v86 (ix2 b j)) = ix1 j :=
  funext fun a => Fin.ext (by match a with | ⟨0, _⟩ => rfl)

/-- The joined rows at a column of the left half: the hidden row the first column of row numbers names. -/
private theorem v82_top (x1 : IVec S2x640000 32) (x2 : FVec Ideal S640000x128 .f32) (x3 : IVec S131072x2 32)
    (x8 : FVec Ideal S128x128 .f32) (x9 : FVec Ideal S128 .f32) (b : Fin 131072) (k : Fin 128) :
    val_main_v82 (F := Ideal) x1 x2 x3 x8 x9 (ix2 b (Cert.Sage.topRow k))
      = val_main_v63 (F := Ideal) x1 x2 x8 x9 (ix2 (Cert.Sage.rowOf (val_main_v73 (F := Ideal) x3) b) k) := by
  unfold val_main_v82
  refine (concatenate_pair_apply_left (t := S131072x256) (s₁ := S131072x128) (s₂ := S131072x128) (1 : Fin 2) _ _
    concatenates_S131072x128_S131072x128_S131072x256_d1
    (ix2 b (Cert.Sage.topRow k)) rfl (ix2 b k) (fun a => by match a with | ⟨0, _⟩ => rfl | ⟨1, _⟩ => rfl)).trans ?_
  unfold val_main_v74
  exact GatherRows.gather_rows_apply (N := 40000) (C := 128) (n := 131072) (by decide) _ _ _ b k

/-- The joined rows at a column of the right half: the hidden row the second column of row numbers names. -/
private theorem v82_bot (x1 : IVec S2x640000 32) (x2 : FVec Ideal S640000x128 .f32) (x3 : IVec S131072x2 32)
    (x8 : FVec Ideal S128x128 .f32) (x9 : FVec Ideal S128 .f32) (b : Fin 131072) (k : Fin 128) :
    val_main_v82 (F := Ideal) x1 x2 x3 x8 x9 (ix2 b (Cert.Sage.botRow k))
      = val_main_v63 (F := Ideal) x1 x2 x8 x9 (ix2 (Cert.Sage.rowOf (val_main_v80 (F := Ideal) x3) b) k) := by
  unfold val_main_v82
  refine (concatenate_pair_apply_right (t := S131072x256) (s₁ := S131072x128) (s₂ := S131072x128) (1 : Fin 2) _ _
    concatenates_S131072x128_S131072x128_S131072x256_d1
    (ix2 b (Cert.Sage.botRow k)) rfl rfl (ix2 b k)
    (fun a => by match a with | ⟨0, _⟩ => intro _; rfl | ⟨1, _⟩ => intro h; exact absurd rfl h)
    (by show k.val + 128 = 128 + k.val; omega)).trans ?_
  unfold val_main_v81
  exact GatherRows.gather_rows_apply (N := 40000) (C := 128) (n := 131072) (by decide) _ _ _ b k

/-- The reference's result at couple `b`, feature `j`. -/
theorem result_apply (x1 : IVec S2x640000 32) (x2 : FVec Ideal S640000x128 .f32) (x3 : IVec S131072x2 32)
    (x8 : FVec Ideal S128x128 .f32) (x9 : FVec Ideal S128 .f32) (x10 : FVec Ideal S128x256 .f32) (x11 : FVec Ideal S128 .f32)
    (b : Fin 131072) (j : Fin 128) :
    val_main_v87 (F := Ideal) x1 x2 x3 x8 x9 x10 x11 (ix2 b j)
      = Cert.Sage.edge (fun n k => val_main_v63 (F := Ideal) x1 x2 x8 x9 (ix2 n k)) (val_main_v83 (F := Ideal) x10) x11
          (Cert.Sage.rowOf (val_main_v73 (F := Ideal) x3) b) (Cert.Sage.rowOf (val_main_v80 (F := Ideal) x3) b) j := by
  rw [val_main_v87_apply, val_main_v86_apply, val_main_v85_apply, val_main_v84_apply, bias86_ix, sum_halves]
  simp only [lidx84_ix, ridx84_ix, v82_top, v82_bot]
  unfold Cert.Sage.edge
  rfl

end Cert.RefSide

end
-- ==== Proof.Claims.lean ====
/-
  The five claims. The three frames are the generated ones (the reference's is its run with the result dropped); nothing
  was rewritten by the idealization; and the two idealized programs end with the same array: at couple b and feature j
  both hold (sum over k of H (s, k) * E (k, j)) + (sum over k of H (d, k) * E (128 + k, j)) + c j, where H is the hidden
  activation table, E the transposed [256, 128] table, and s, d the rows the couple's two wrapped entries name — the kernel
  by projecting the node table first and gathering rows after, the reference by gathering rows first and multiplying after,
  which differ only by splitting a sum over 256 terms into two sums over 128.
-/
import proofs.«407797_j3393024164201_2_alg».proof.Defs
import proofs.«407797_j3393024164201_2_alg».proof.Proof.Gen.Kernel.Frame
import proofs.«407797_j3393024164201_2_alg».proof.Proof.Gen.KernelIdeal.Frame
import proofs.«407797_j3393024164201_2_alg».proof.Proof.Gen.ReferenceIdeal.Run
import proofs.«407797_j3393024164201_2_alg».proof.Proof.Gen.ReferenceIdeal.Read
import proofs.«407797_j3393024164201_2_alg».proof.Proof.Gen.Pre_finite_inputs
import proofs.«407797_j3393024164201_2_alg».proof.Proof.RunValue
import proofs.«407797_j3393024164201_2_alg».proof.Proof.KernelValue
import proofs.«407797_j3393024164201_2_alg».proof.Proof.RefAtIndex
import proofs.«407797_j3393024164201_2_alg».proof.Proof.Domain

set_option maxRecDepth 16384

noncomputable section

namespace Cert.Proof.SageClaims

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the reference's own term of the arguments. -/
theorem algebraic : Cert.algebraic_KernelIdeal_ReferenceIdeal := by
  intro m ρ m' ρ' hpre hagree
  refine ⟨fun c => Cert.ReferenceIdeal.Read.val_main_v87 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.RunValue.run_result (F := Ideal) m ρ)
    funext i
    obtain ⟨b, j, rfl⟩ : ∃ (b : Fin 131072) (j : Fin 128), i = ix2 b j := ⟨i 0, i 1, eq_ix2 i⟩
    show _ = Cert.ReferenceIdeal.Read.val_main_v87 (F := Ideal) _ _ _ _ _ _ _ (ix2 b j)
    rw [Cert.KernelSide.kernel_result_apply m ρ c
      (Cert.Domain.couples_of_pre _ _ _ _ _ _ _ _ _ _ _ _ (hpre c)) b j, Cert.RefSide.result_apply]
    unfold Cert.Sage.edge
    simp only [Cert.RefSide.hidden_apply]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v87_eq]
    obtain ⟨-, h1, h2, h3, -, -, -, -, h8, h9, h10, h11⟩ := hagree c
    rw [h1, h2, h3, h8, h9, h10, h11]

end Cert.Proof.SageClaims

end
-- ==== Proof.lean ====
/-
  Edge scores of a two-layer graph network over 40000 nodes, 640000 edges and 131072 edge couples.

  Each layer averages the edge attributes arriving at a node, maps the average through a rectified affine layer, and scores
  a couple (s, d) by the hidden rows of its two nodes, joined, against a [128, 256] table plus a bias. The average does not
  depend on the node features, so the first layer's outputs never reach the result: the result is the second layer's score
      e (b, j) = sum over k < 256 of pair (b, k) * We2 (j, k) + be2 j,   pair (b, .) = hidden row of s_b joined with hidden row of d_b,
  where hidden (n, k) = max (sum over l of agg (n, l) * Wn2 (k, l) + bn2 k) 0.

  The reference computes exactly that. The kernel first multiplies the whole hidden table by the two halves of the transposed
  table (a launch over eight blocks of 5000 rows), then takes from each product the rows the couples name, then adds the two
  takes and the bias (a launch over sixteen blocks of 8192 rows):
      e (b, j) = (sum over k < 128 of hidden (s_b, k) * We2 (j, k)) + (sum over k < 128 of hidden (d_b, k) * We2 (j, 128 + k)) + be2 j.
  The two agree because a sum over 256 terms is the sum over its first 128 plus the sum over its last 128, which holds for
  every extended real; no finiteness is used. A row number is read as numpy reads it, a negative one counting from the end;
  the kernel's take fills a row whose number is still outside 0 .. 39999 with a fixed word where the reference clamps the
  number, so the precondition states that every entry of the couples lies between -40000 and 39999, the range in which the
  reference's own indexing is in range.
-/
import proofs.«407797_j3393024164201_2_alg».proof.Defs
import proofs.«407797_j3393024164201_2_alg».proof.Proof.Gen.Kernel
import proofs.«407797_j3393024164201_2_alg».proof.Proof.Gen.KernelIdeal
import proofs.«407797_j3393024164201_2_alg».proof.Proof.Gen.ReferenceIdeal
import proofs.«407797_j3393024164201_2_alg».proof.Proof.Gen.Pre_finite_inputs
import proofs.«407797_j3393024164201_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  SageClaims.frame_k, SageClaims.frame_ki, SageClaims.frame_ri, SageClaims.preserves, SageClaims.algebraic⟩

end Cert.Proof

end
